-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S3 : Shape := ⟨1, ![3]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S16x3x512x512 .f32) (main_arg1 : FVec F S16x3x512x512 .f32) (main_arg2 : FVec F S3 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S16x3x512x512 : Shape := ⟨4, ![16, 3, 512, 512]⟩
abbrev S3 : Shape := ⟨1, ![3]⟩
abbrev S3x1x1 : Shape := ⟨3, ![3, 1, 1]⟩
abbrev S1x1 : Shape := ⟨2, ![1, 1]⟩
abbrev S1x3x512x512 : Shape := ⟨4, ![1, 3, 512, 512]⟩
abbrev S3x512x512 : Shape := ⟨3, ![3, 512, 512]⟩
abbrev S3x512 : Shape := ⟨2, ![3, 512]⟩
abbrev S3x512x1 : Shape := ⟨3, ![3, 512, 1]⟩
abbrev S3x1 : Shape := ⟨2, ![3, 1]⟩
abbrev S3x1x512 : Shape := ⟨3, ![3, 1, 512]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3, .f32⟩
  | .hbm, ⟨3, _⟩ => ⟨S3x1x1, .f32⟩
  | .hbm, ⟨4, _⟩ => ⟨S1x1, .f32⟩
  | .hbm, ⟨5, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S3x1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_34 : BitVec 32 := 0#32
  let v64 : BitVec 1 := Scalar.cmpi .ne v63 c0_i32_34
  v64

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S3_S3x1x1 : S3.ShapeCasts S3x1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  inb_S3x1x1_S3x1x1_0_0_0 : ∀ a, (![0, 0, 0] : Fin 3 → Nat) a + S3x1x1.size a ≤ S3x1x1.size a
  h_S3x1x1 : 0 < S3x1x1.numel
  shapeCasts_S3x1x1_S3x1x1 : S3x1x1.ShapeCasts S3x1x1
  reduces_S3x512x512_S3x512 : S3x512x512.Reduces [2] S3x512
  shapeCasts_S3x512_S3x512x1 : S3x512.ShapeCasts S3x512x1
  reduces_S3x512x1_S3x1 : S3x512x1.Reduces [1] S3x1
  shapeCasts_S3x1_S3x1x1 : S3x1.ShapeCasts S3x1x1
  reduces_S3x1x1_S1x1 : S3x1x1.Reduces [0] S1x1
  reduces_S3x512x512_S3x512_2 : S3x512x512.Reduces [1] S3x512
  shapeCasts_S3x512_S3x1x512 : S3x512.ShapeCasts S3x1x512
  reduces_S3x1x512_S3x1 : S3x1x512.Reduces [2] S3x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x1.size a ≤ S3x1x1.size a
  hwx0_2 : ∀ i : grid0.Coords, EltTy.bits .f32 = 32 ∨ (Rect.block (s := S3x1x1) S3x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S3 : Shape := ⟨1, ![3]⟩
abbrev S_ : Shape := ⟨0, ![]⟩
abbrev S16x3x512 : Shape := ⟨3, ![16, 3, 512]⟩
abbrev S16x3x512x1 : Shape := ⟨4, ![16, 3, 512, 1]⟩
abbrev S16x3 : Shape := ⟨2, ![16, 3]⟩
abbrev S16x3x1x512 : Shape := ⟨4, ![16, 3, 1, 512]⟩
abbrev S1x3 : Shape := ⟨2, ![1, 3]⟩

abbrev nBuf : Space → Nat
  | .hbm => 69
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3, .f32⟩
  | .hbm, ⟨3, _⟩ => ⟨S16x3x512x512, .f32⟩
  | .hbm, ⟨4, _⟩ => ⟨S_, .f32⟩
  | .hbm, ⟨5, _⟩ => ⟨S16x3x512, .f32⟩
  | .hbm, ⟨6, _⟩ => ⟨S16x3x512x1, .f32⟩
  | .hbm, ⟨7, _⟩ => ⟨S16x3x512x1, .f32⟩
  | .hbm, ⟨8, _⟩ => ⟨S_, .f32⟩
  | .hbm, ⟨9, _⟩ => ⟨S16x3x512x1, .f32⟩
  | .hbm, ⟨10, _⟩ => ⟨S16x3x512x1, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S_, .f32⟩
  | .hbm, ⟨15, _⟩ => ⟨S16x3x512, .f32⟩
  | .hbm, ⟨16, _⟩ => ⟨S16x3x512x1, .f32⟩
  | .hbm, ⟨17, _⟩ => ⟨S16x3x512x1, .f32⟩
  | .hbm, ⟨18, _⟩ => ⟨S_, .f32⟩
  | .hbm, ⟨19, _⟩ => ⟨S16x3x512x1, .f32⟩
  | .hbm, ⟨20, _⟩ => ⟨S16x3x512x1, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S_, .f32⟩
  | .hbm, ⟨25, _⟩ => ⟨S16x3, .f32⟩
  | .hbm, ⟨26, _⟩ => ⟨S_, .f32⟩
  | .hbm, ⟨27, _⟩ => ⟨S16x3, .f32⟩
  | .hbm, ⟨28, _⟩ => ⟨S16x3, .f32⟩
  | .hbm, ⟨29, _⟩ => ⟨S16x3x512x512, .f32⟩
  | .hbm, ⟨30, _⟩ => ⟨S_, .f32⟩
  | .hbm, ⟨31, _⟩ => ⟨S16x3x512, .f32⟩
  | .hbm, ⟨32, _⟩ => ⟨S16x3x1x512, .f32⟩
  | .hbm, ⟨33, _⟩ => ⟨S16x3x1x512, .f32⟩
  | .hbm, ⟨34, _⟩ => ⟨S_, .f32⟩
  | .hbm, ⟨35, _⟩ => ⟨S16x3x1x512, .f32⟩
  | .hbm, ⟨36, _⟩ => ⟨S16x3x1x512, .f32⟩
  | .hbm, ⟨37, _⟩ => ⟨S16x3x512x512, .f32⟩
  | .hbm, ⟨38, _⟩ => ⟨S16x3x512x512, .f32⟩
  | .hbm, ⟨39, _⟩ => ⟨S16x3x512x512, .f32⟩
  | .hbm, ⟨40, _⟩ => ⟨S_, .f32⟩
  | .hbm, ⟨41, _⟩ => ⟨S16x3x512, .f32⟩
  | .hbm, ⟨42, _⟩ => ⟨S16x3x1x512, .f32⟩
  | .hbm, ⟨43, _⟩ => ⟨S16x3x1x512, .f32⟩
  | .hbm, ⟨44, _⟩ => ⟨S_, .f32⟩
  | .hbm, ⟨45, _⟩ => ⟨S16x3x1x512, .f32⟩
  | .hbm, ⟨46, _⟩ => ⟨S16x3x1x512, .f32⟩
  | .hbm, ⟨47, _⟩ => ⟨S16x3x512x512, .f32⟩
  | .hbm, ⟨48, _⟩ => ⟨S16x3x512x512, .f32⟩
  | .hbm, ⟨49, _⟩ => ⟨S16x3x512x512, .f32⟩
  | .hbm, ⟨50, _⟩ => ⟨S_, .f32⟩
  | .hbm, ⟨51, _⟩ => ⟨S16x3, .f32⟩
  | .hbm, ⟨52, _⟩ => ⟨S_, .f32⟩
  | .hbm, ⟨53, _⟩ => ⟨S16x3, .f32⟩
  | .hbm, ⟨54, _⟩ => ⟨S16x3, .f32⟩
  | .hbm, ⟨55, _⟩ => ⟨S1x3, .f32⟩
  | .hbm, ⟨56, _⟩ => ⟨S16x3, .f32⟩
  | .hbm, ⟨57, _⟩ => ⟨S16x3, .f32⟩
  | .hbm, ⟨58, _⟩ => ⟨S_, .f32⟩
  | .hbm, ⟨59, _⟩ => ⟨S_, .f32⟩
  | .hbm, ⟨60, _⟩ => ⟨S1x3, .f32⟩
  | .hbm, ⟨61, _⟩ => ⟨S16x3, .f32⟩
  | .hbm, ⟨62, _⟩ => ⟨S16x3, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  reducesTo_S16x3x512x512_S16x3x512_d3 : S16x3x512x512.ReducesTo [3] S16x3x512
  h_S_ : 0 < S_.numel
  bcast_S16x3x512_S16x3x512x1_0_1_2 : S16x3x512.BroadcastsInDim S16x3x512x1 (![0, 1, 2] : Fin 3 → Fin S16x3x512x1.rank)
  bcast_S_S16x3x512x1 : S_.BroadcastsInDim S16x3x512x1 (![] : Fin 0 → Fin S16x3x512x1.rank)
  bcast_S16x3x512x1_S16x3x512x512_0_1_2_3 : S16x3x512x1.BroadcastsInDim S16x3x512x512 (![0, 1, 2, 3] : Fin 4 → Fin S16x3x512x512.rank)
  reducesTo_S16x3x512x512_S16x3_d2_3 : S16x3x512x512.ReducesTo [2, 3] S16x3
  bcast_S_S16x3 : S_.BroadcastsInDim S16x3 (![] : Fin 0 → Fin S16x3.rank)
  reducesTo_S16x3x512x512_S16x3x512_d2 : S16x3x512x512.ReducesTo [2] S16x3x512
  bcast_S16x3x512_S16x3x1x512_0_1_3 : S16x3x512.BroadcastsInDim S16x3x1x512 (![0, 1, 3] : Fin 3 → Fin S16x3x1x512.rank)
  bcast_S_S16x3x1x512 : S_.BroadcastsInDim S16x3x1x512 (![] : Fin 0 → Fin S16x3x1x512.rank)
  bcast_S16x3x1x512_S16x3x512x512_0_1_2_3 : S16x3x1x512.BroadcastsInDim S16x3x512x512 (![0, 1, 2, 3] : Fin 4 → Fin S16x3x512x512.rank)
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  reducesTo_S16x3_S_d0_1 : S16x3.ReducesTo [0, 1] S_

variable [Facts₀]

class Facts : Prop extends Facts₀ where

variable [Facts]
-- ==== Proof.Spec.lean ====
/-
  The mathematics of the certificate, with no program in sight.

  For arrays x, y of shape [16, 3, 512, 512] and weights w of shape [3], every batch b and channel c has a
  512 x 512 image. A ROW similarity is the sum over the rows h of the cosine of row h of x against row h of y;
  a COLUMN similarity the same over the columns. The cosine of two families u, v over a finite index is
  (sum_k u_k v_k) / (|u| |v|), with each Euclidean norm |u| = sqrt (sum_k u_k^2) clamped from below by a small
  positive constant. The result is  -(sum_b sum_c (rowSim b c / 512) w_c + sum_b sum_c (colSim b c / 512) w_c) / 16,
  written here as the kernel arranges it: products with 2^-9 and 2^-4, and the sign as 0 - z.

  Over the extended reals addition is commutative and associative, so every regrouping of these sums is free.
  The one step that is not free is taking the quotient by |u| |v| out of a sum, element by element:
      sum_k (u_k / |u|) (v_k / |v|) = (sum_k u_k v_k) / (|u| |v|).
  It holds when every u_k, v_k is a real number (then |u|, |v| are positive reals): `sum_div_cnorm`.
-/
import Idealize.ShloMosaic.PureOps.Ideal
import Idealize.ShloMosaic.PureOps.Ideal.Laws
import Idealize.ShloMosaic.Lib.ValueIdx

noncomputable section

open scoped BigOperators

namespace Cert.ProfileSim

open Idealize.ShloMosaic Idealize.ShloMosaic.ValueIdx

/-! ## The constants -/

/-- The lower clamp of a norm: the f32 nearest to 1e-12. -/
def epsE : EReal := Ideal.ofBits .f32 0x2B8CBCCC#32
/-- 2^-9 = 1/512, the reciprocal of a row's (and a column's) length. -/
def invLen : EReal := Ideal.ofBits .f32 0x3B000000#32
/-- 2^-4 = 1/16, the reciprocal of the batch size. -/
def invBatch : EReal := Ideal.ofBits .f32 0x3D800000#32

/-- The clamp is a positive real number. -/
theorem epsE_pos : ∃ e : ℝ, 0 < e ∧ epsE = (e : EReal) := by
  refine ⟨_, ?_, by simp [epsE, Ideal.ofBits, Ideal.ieee, -EReal.coe_mul]; rfl⟩
  norm_num

theorem invLen_eq : invLen = ((1 / 512 : ℝ) : EReal) := by
  simp [invLen, Ideal.ofBits, Ideal.ieee, -EReal.coe_mul]; norm_num

theorem invBatch_eq : invBatch = ((1 / 16 : ℝ) : EReal) := by
  simp [invBatch, Ideal.ofBits, Ideal.ieee, -EReal.coe_mul]; norm_num

/-- The reference's divisor 512.0 denotes the real 512. -/
theorem ofBits_512 : Ideal.ofBits .f32 0x44000000#32 = ((512 : ℝ) : EReal) := by
  simp [Ideal.ofBits, Ideal.ieee, -EReal.coe_mul]; norm_num

/-- The reference's divisor 16.0 denotes the real 16. -/
theorem ofBits_16 : Ideal.ofBits .f32 0x41800000#32 = ((16 : ℝ) : EReal) := by
  simp [Ideal.ofBits, Ideal.ieee, -EReal.coe_mul]; norm_num

/-- Dividing by 512 is multiplying by 2^-9, on every extended real. -/
theorem div_512 (z : EReal) : Ideal.div z (Ideal.ofBits .f32 0x44000000#32) = z * invLen := by
  rw [ofBits_512, Ideal.div_coe (by norm_num : (512 : ℝ) ≠ 0), invLen_eq]

/-- Dividing by 16 is multiplying by 2^-4, on every extended real. -/
theorem div_16 (z : EReal) : Ideal.div z (Ideal.ofBits .f32 0x41800000#32) = z * invBatch := by
  rw [ofBits_16, Ideal.div_coe (by norm_num : (16 : ℝ) ≠ 0), invBatch_eq]

/-! ## The cosine of two families -/

variable {ι : Type} [Fintype ι]

/-- The Euclidean norm of a family, clamped from below. -/
def cnorm (u : ι → EReal) : EReal := max (Ideal.sqrt (∑ k, u k * u k)) epsE

/-- The cosine of two families: one quotient of the inner product by the product of the clamped norms. -/
def cosim (u v : ι → EReal) : EReal := Ideal.div (∑ k, u k * v k) (cnorm u * cnorm v)

/-- A finite sum of real numbers, read in the extended reals, is the real sum. -/
theorem coe_sum {κ : Type} (s : Finset κ) (f : κ → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The clamped norm of a family of real numbers is a positive real number. -/
theorem cnorm_coe (a : ι → ℝ) : ∃ n : ℝ, 0 < n ∧ cnorm (fun k => ((a k : ℝ) : EReal)) = (n : EReal) := by
  obtain ⟨e, he, hE⟩ := epsE_pos
  refine ⟨max (Real.sqrt (∑ k, a k * a k)) e, lt_max_of_lt_right he, ?_⟩
  unfold cnorm
  have h1 : (∑ k, ((a k : ℝ) : EReal) * ((a k : ℝ) : EReal)) = ((∑ k, a k * a k : ℝ) : EReal) := by
    rw [← coe_sum]; exact Finset.sum_congr rfl fun k _ => (EReal.coe_mul _ _).symm
  have h2 : ¬ (∑ k, a k * a k) < 0 := not_lt.mpr (Finset.sum_nonneg fun k _ => mul_self_nonneg _)
  rw [h1, Ideal.sqrt_coe, if_neg h2, hE]
  exact (EReal.coe_strictMono.monotone.map_max).symm

/-- THE LAW THAT NEEDS FINITENESS. For families of real numbers, normalising each family first and then taking the
    inner product is the cosine: the positive real factor 1 / (|u| |v|) comes out of the sum. -/
theorem sum_div_cnorm (u v : ι → EReal) (hu : ∀ k, ∃ r : ℝ, u k = (r : EReal)) (hv : ∀ k, ∃ r : ℝ, v k = (r : EReal)) :
    (∑ k, Ideal.div (u k) (cnorm u) * Ideal.div (v k) (cnorm v)) = cosim u v := by
  choose a ha using hu
  choose b hb using hv
  obtain rfl : u = fun k => ((a k : ℝ) : EReal) := funext ha
  obtain rfl : v = fun k => ((b k : ℝ) : EReal) := funext hb
  obtain ⟨n, hn, hN⟩ := cnorm_coe a
  obtain ⟨n', hn', hN'⟩ := cnorm_coe b
  unfold cosim
  rw [hN, hN']
  have hl : ∀ k, Ideal.div ((a k : ℝ) : EReal) (n : EReal) * Ideal.div ((b k : ℝ) : EReal) (n' : EReal)
      = (((a k / n) * (b k / n') : ℝ) : EReal) := fun k => by
    rw [Ideal.div_coe hn.ne', Ideal.div_coe hn'.ne', ← EReal.coe_mul, ← EReal.coe_mul, ← EReal.coe_mul]
    congr 1; ring
  have hs : (∑ k, ((a k : ℝ) : EReal) * ((b k : ℝ) : EReal)) = ((∑ k, a k * b k : ℝ) : EReal) := by
    rw [← coe_sum]; exact Finset.sum_congr rfl fun k _ => (EReal.coe_mul _ _).symm
  rw [Finset.sum_congr rfl fun k _ => hl k, coe_sum, hs, ← EReal.coe_mul,
    Ideal.div_coe (mul_pos hn hn').ne', ← EReal.coe_mul]
  congr 1
  rw [Finset.sum_mul]
  refine Finset.sum_congr rfl fun k _ => ?_
  field_simp

/-! ## The similarities over the whole arrays -/

/-- An array of the arguments' shape, and the weights'. -/
abbrev Arr : Type := (⟨4, ![16, 3, 512, 512]⟩ : Shape).Idx → EReal
abbrev Wts : Type := (⟨1, ![3]⟩ : Shape).Idx → EReal

/-- Image (b, c): the sum over its rows of the cosine of x's row against y's row. -/
def rowSim (x y : Arr) (b : Fin 16) (c : Fin 3) : EReal :=
  ∑ h : Fin 512, cosim (fun w : Fin 512 => x (ix4 b c h w)) (fun w : Fin 512 => y (ix4 b c h w))

/-- Image (b, c): the sum over its columns of the cosine of x's column against y's column. -/
def colSim (x y : Arr) (b : Fin 16) (c : Fin 3) : EReal :=
  ∑ w : Fin 512, cosim (fun h : Fin 512 => x (ix4 b c h w)) (fun h : Fin 512 => y (ix4 b c h w))

/-- Batch b's weighted mean row similarity, and column similarity. -/
def rowBatch (x y : Arr) (wt : Wts) (b : Fin 16) : EReal := ∑ c : Fin 3, rowSim x y b c * invLen * wt (ix1 c)
def colBatch (x y : Arr) (wt : Wts) (b : Fin 16) : EReal := ∑ c : Fin 3, colSim x y b c * invLen * wt (ix1 c)

/-- The result: minus the batch mean of the two weighted similarities. -/
def spec (x y : Arr) (wt : Wts) : EReal :=
  (0 - ((∑ b : Fin 16, rowBatch x y wt b) + (∑ b : Fin 16, colBatch x y wt b))) * invBatch

/-! ## The same over ONE batch's block [1, 3, 512, 512] and the weights viewed [3, 1, 1] -/

abbrev Blk : Type := (⟨4, ![1, 3, 512, 512]⟩ : Shape).Idx → EReal
abbrev WBlk : Type := (⟨3, ![3, 1, 1]⟩ : Shape).Idx → EReal

def rowTerm (xb yb : Blk) (wb : WBlk) : EReal :=
  ∑ c : Fin 3, (∑ h : Fin 512, cosim (fun w : Fin 512 => xb (ix4 (0 : Fin 1) c h w)) (fun w : Fin 512 => yb (ix4 (0 : Fin 1) c h w)))
    * invLen * wb (ix3 c (0 : Fin 1) (0 : Fin 1))

def colTerm (xb yb : Blk) (wb : WBlk) : EReal :=
  ∑ c : Fin 3, (∑ w : Fin 512, cosim (fun h : Fin 512 => xb (ix4 (0 : Fin 1) c h w)) (fun h : Fin 512 => yb (ix4 (0 : Fin 1) c h w)))
    * invLen * wb (ix3 c (0 : Fin 1) (0 : Fin 1))

/-- A block that reads batch b of the arrays gives batch b's terms. -/
theorem rowTerm_eq_rowBatch (x y : Arr) (wt : Wts) (b : Fin 16) (xb yb : Blk) (wb : WBlk)
    (hx : ∀ c h w, xb (ix4 (0 : Fin 1) c h w) = x (ix4 b c h w)) (hy : ∀ c h w, yb (ix4 (0 : Fin 1) c h w) = y (ix4 b c h w))
    (hw : ∀ c, wb (ix3 c (0 : Fin 1) (0 : Fin 1)) = wt (ix1 c)) : rowTerm xb yb wb = rowBatch x y wt b := by
  unfold rowTerm rowBatch rowSim
  refine Finset.sum_congr rfl fun c _ => ?_
  rw [hw c]
  congr 2
  refine Finset.sum_congr rfl fun h _ => ?_
  congr 1 <;> funext w
  · exact hx c h w
  · exact hy c h w

theorem colTerm_eq_colBatch (x y : Arr) (wt : Wts) (b : Fin 16) (xb yb : Blk) (wb : WBlk)
    (hx : ∀ c h w, xb (ix4 (0 : Fin 1) c h w) = x (ix4 b c h w)) (hy : ∀ c h w, yb (ix4 (0 : Fin 1) c h w) = y (ix4 b c h w))
    (hw : ∀ c, wb (ix3 c (0 : Fin 1) (0 : Fin 1)) = wt (ix1 c)) : colTerm xb yb wb = colBatch x y wt b := by
  unfold colTerm colBatch colSim
  refine Finset.sum_congr rfl fun c _ => ?_
  rw [hw c]
  congr 2
  refine Finset.sum_congr rfl fun w _ => ?_
  congr 1 <;> funext h
  · exact hx c h w
  · exact hy c h w

end Cert.ProfileSim

end
-- ==== Proof.Finite.lean ====
import proofs.«110199_j4818953306340_1_alg».proof.Pre_finite_inputs
import proofs.«110199_j4818953306340_1_alg».proof.Proof.Gen.Pre_finite_inputs
import Idealize.ShloMosaic.Lib.ReduceAll
import Idealize.ShloMosaic.PureOps.Ideal.Laws
import Idealize.ShloMosaic.Lib.ValueIdx

noncomputable section

namespace Cert.Pre_finite_inputs.Finite

open Idealize.ShloMosaic Idealize.ShloMosaic.ValueIdx Cert.Pre_finite_inputs

/-- The scalar shape has one index. -/
instance subsingleton_scalar_idx : Subsingleton S_.Idx := ⟨fun a b => funext fun d => d.elim0⟩

/-- The f32 word of the positive infinity denotes ⊤. -/
theorem ofBits_inf : Ideal.ofBits .f32 0x7F800000#32 = (⊤ : EReal) := by
  simp [Ideal.ofBits, Ideal.ieee]

/-- A value whose absolute value compares strictly below +∞ is a real number: at either infinity the
    absolute value is ⊤, which is not below itself. -/
theorem real_of_abs_lt_top (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- The same, with the bound spelt as the word of +∞ and the comparison as the element of the compared arrays. -/
theorem real_of_abs_lt_inf (a : EReal)
    (h : Ideal.cmp .olt (max a (-a)) (Ideal.ofBits .f32 0x7F800000#32) = 1#1) : ∃ r : ℝ, a = (r : EReal) := by
  rw [ofBits_inf] at h
  exact real_of_abs_lt_top a h

/-- Under the precondition every entry of x and of y is a real number. -/
theorem real_of_pre (x y : FVec Ideal S16x3x512x512 .f32) (w : FVec Ideal S3 .f32)
    (h : Cert.Pre_finite_inputs.fn (F := Ideal) x y w = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  -- the result bit is the conjunction of three "all finite" bits; the first two are about x and y
  obtain ⟨hxy, -⟩ := IntOp.andi_eq_one.1 h0
  obtain ⟨hx, hy⟩ := IntOp.andi_eq_one.1 hxy
  refine ⟨fun i => ?_, fun i => ?_⟩
  · -- a conjunction over every index that is 1 is 1 at each index: |x i| < +∞
    exact real_of_abs_lt_inf (x i) (Host.reduce_andi_all _ _ _ _ _ hx i)
  · exact real_of_abs_lt_inf (y i) (Host.reduce_andi_all _ _ _ _ _ hy i)

end Cert.Pre_finite_inputs.Finite

end
-- ==== Proof.KerRow.lean ====
import proofs.«110199_j4818953306340_1_alg».proof.Proof.Spec
import proofs.«110199_j4818953306340_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RowPayload

open Idealize.ShloMosaic Idealize.ShloMosaic.ValueIdx Cert.KernelIdeal Cert.KernelIdeal.Gen Cert.ProfileSim

/-! ## The blocks with their unit axis dropped -/

/-- The first block at (c, h, w) is the loaded block at (0, c, h, w). -/
theorem pay6_apply (xb : Vec Ideal S1x3x512x512 .f32) (c : Fin 3) (h w : Fin 512) :
    k0_pay6 (F := Ideal) xb (ix3 c h w) = xb (ix4 (0 : Fin 1) c h w) :=
  shapeCast_1abc_abc_apply xb shapeCasts_S1x3x512x512_S3x512x512 c h w

/-- The second block likewise. -/
theorem pay7_apply (yb : Vec Ideal S1x3x512x512 .f32) (c : Fin 3) (h w : Fin 512) :
    k0_pay7 (F := Ideal) yb (ix3 c h w) = yb (ix4 (0 : Fin 1) c h w) :=
  shapeCast_1abc_abc_apply yb shapeCasts_S1x3x512x512_S3x512x512 c h w

/-! ## The three sums, each read at literal coordinates -/

/-- The index (c, h) with w inserted on the last axis is (c, h, w). -/
theorem lift_last (c : Fin 3) (h w : Fin 512) :
    reduces_S3x512x512_S3x512.lift (ix2 c h) w = ix3 c h w :=
  funext fun a => Fin.ext (by match a with | ⟨0, _⟩ => rfl | ⟨1, _⟩ => rfl | ⟨2, _⟩ => rfl)

/-- A sum over the last axis of a [3, 512, 512] array, at (c, h), is the sum over w of the array at (c, h, w). -/
theorem sumLast_apply (v : FVec Ideal S3x512x512 .f32) (c : Fin 3) (h : Fin 512) :
    multiReduction (F := Ideal) .add [2] S3x512 v 0x00000000#32 reduces_S3x512x512_S3x512 (.inl rfl) rfl (ix2 c h)
      = ∑ w : Fin 512, v (ix3 c h w) := by
  refine (Ideal.multiReduction_add_single v 0x00000000#32 reduces_S3x512x512_S3x512 (.inl rfl) rfl (ix2 c h)).trans ?_
  exact Finset.sum_congr rfl fun w _ => congrArg v (lift_last c h w)

/-- The index (c, u) with h inserted on the middle axis is (c, h, u). -/
theorem lift_mid (c : Fin 3) (h : Fin 512) (u : Fin 1) :
    reduces_S3x512x1_S3x1.lift (ix2 c u) h = ix3 c h u :=
  funext fun a => Fin.ext (by match a with | ⟨0, _⟩ => rfl | ⟨1, _⟩ => rfl | ⟨2, _⟩ => rfl)

/-- A sum over the middle axis of a [3, 512, 1] array, at (c, u), is the sum over h of the array at (c, h, u). -/
theorem sumMid_apply (v : FVec Ideal S3x512x1 .f32) (c : Fin 3) (u : Fin 1) :
    multiReduction (F := Ideal) .add [1] S3x1 v 0x00000000#32 reduces_S3x512x1_S3x1 (.inl rfl) rfl (ix2 c u)
      = ∑ h : Fin 512, v (ix3 c h u) := by
  refine (Ideal.multiReduction_add_single v 0x00000000#32 reduces_S3x512x1_S3x1 (.inl rfl) rfl (ix2 c u)).trans ?_
  exact Finset.sum_congr rfl fun h _ => congrArg v (lift_mid c h u)

/-- The index (u, u') with c inserted on the first axis is (c, u, u'). -/
theorem lift_first (c : Fin 3) (u u' : Fin 1) :
    reduces_S3x1x1_S1x1.lift (ix2 u u') c = ix3 c u u' :=
  funext fun a => Fin.ext (by match a with | ⟨0, _⟩ => rfl | ⟨1, _⟩ => rfl | ⟨2, _⟩ => rfl)

/-- A sum over the first axis of a [3, 1, 1] array, at (u, u'), is the sum over c of the array at (c, u, u'). -/
theorem sumFirst_apply (v : FVec Ideal S3x1x1 .f32) (u u' : Fin 1) :
    multiReduction (F := Ideal) .add [0] S1x1 v 0x00000000#32 reduces_S3x1x1_S1x1 (.inl rfl) rfl (ix2 u u')
      = ∑ c : Fin 3, v (ix3 c u u') := by
  refine (Ideal.multiReduction_add_single v 0x00000000#32 reduces_S3x1x1_S1x1 (.inl rfl) rfl (ix2 u u')).trans ?_
  exact Finset.sum_congr rfl fun c _ => congrArg v (lift_first c u u')

/-! ## The two casts that append a unit axis -/

/-- A [3, 512] array viewed [3, 512, 1] reads, at (c, h, u), the array at (c, h). -/
theorem cast_col_apply {α : Type} (x : S3x512.Idx → α) (c : Fin 3) (h : Fin 512) (u : Fin 1) :
    shapeCast S3x512x1 x shapeCasts_S3x512_S3x512x1 (ix3 c h u) = x (ix2 c h) :=
  shapeCast_apply x _ _ _ (by
    rw [Shape.rowMajor_val_two, Shape.rowMajor_val_three]
    show c.val * 512 + h.val = (c.val * 512 + h.val) * 1 + u.val
    omega)

/-- A [3, 1] array viewed [3, 1, 1] reads, at (c, u, u'), the array at (c, u). -/
theorem cast_one_apply {α : Type} (x : S3x1.Idx → α) (c : Fin 3) (u u' : Fin 1) :
    shapeCast S3x1x1 x shapeCasts_S3x1_S3x1x1 (ix3 c u u') = x (ix2 c u) :=
  shapeCast_apply x _ _ _ (by
    rw [Shape.rowMajor_val_two, Shape.rowMajor_val_three]
    show c.val * 1 + u.val = (c.val * 1 + u.val) * 1 + u'.val
    omega)

/-- The squares of the first block, the squares of the second, and their products, at (c, h, w). -/
theorem pay9_apply (xb : Vec Ideal S1x3x512x512 .f32) (c : Fin 3) (h w : Fin 512) :
    k0_pay9 (F := Ideal) xb (ix3 c h w) = xb (ix4 (0 : Fin 1) c h w) * xb (ix4 (0 : Fin 1) c h w) := by
  show k0_pay6 (F := Ideal) xb (ix3 c h w) * k0_pay6 (F := Ideal) xb (ix3 c h w) = _
  rw [pay6_apply]

theorem pay10_apply (yb : Vec Ideal S1x3x512x512 .f32) (c : Fin 3) (h w : Fin 512) :
    k0_pay10 (F := Ideal) yb (ix3 c h w) = yb (ix4 (0 : Fin 1) c h w) * yb (ix4 (0 : Fin 1) c h w) := by
  show k0_pay7 (F := Ideal) yb (ix3 c h w) * k0_pay7 (F := Ideal) yb (ix3 c h w) = _
  rw [pay7_apply]

theorem pay11_apply (xb yb : Vec Ideal S1x3x512x512 .f32) (c : Fin 3) (h w : Fin 512) :
    k0_pay11 (F := Ideal) xb yb (ix3 c h w) = xb (ix4 (0 : Fin 1) c h w) * yb (ix4 (0 : Fin 1) c h w) := by
  show k0_pay6 (F := Ideal) xb (ix3 c h w) * k0_pay7 (F := Ideal) yb (ix3 c h w) = _
  rw [pay6_apply, pay7_apply]

/-- One batch's row term, as the body computes it from the three blocks it loads. -/
theorem pay12_eq (xb yb : Vec Ideal S1x3x512x512 .f32) (wb : Vec Ideal S3x1x1 .f32) (j : S1x1.Idx) :
    k0_pay12 (F := Ideal) xb yb wb j = rowTerm xb yb wb := by
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  unfold k0_pay12
  refine (sumFirst_apply _ 0 0).trans ?_
  unfold rowTerm
  refine Finset.sum_congr rfl fun c _ => ?_
  have hw : k0_pay8 (F := Ideal) wb = wb := shapeCast_self wb _
  show (shapeCast S3x1x1 _ shapeCasts_S3x1_S3x1x1 (ix3 c 0 0) * invLen) * k0_pay8 (F := Ideal) wb (ix3 c 0 0) = _
  rw [hw, cast_one_apply, sumMid_apply]
  congr 2
  refine Finset.sum_congr rfl fun h _ => ?_
  show Ideal.div (shapeCast S3x512x1 _ shapeCasts_S3x512_S3x512x1 (ix3 c h 0))
      (max (Ideal.sqrt (shapeCast S3x512x1 _ shapeCasts_S3x512_S3x512x1 (ix3 c h 0))) epsE
        * max (Ideal.sqrt (shapeCast S3x512x1 _ shapeCasts_S3x512_S3x512x1 (ix3 c h 0))) epsE) = _
  rw [cast_col_apply, cast_col_apply, cast_col_apply, sumLast_apply, sumLast_apply, sumLast_apply]
  simp only [pay9_apply, pay10_apply, pay11_apply]
  rfl

end Cert.KernelIdeal.RowPayload

end
-- ==== Proof.KerCol.lean ====
import proofs.«110199_j4818953306340_1_alg».proof.Proof.Spec
import proofs.«110199_j4818953306340_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.ColPayload

open Idealize.ShloMosaic Idealize.ShloMosaic.ValueIdx Cert.KernelIdeal Cert.KernelIdeal.Gen Cert.ProfileSim

/-- The block cast [1,3,512,512] → [3,512,512] read at (c, h, w). -/
theorem pay6_apply (xb : Vec Ideal S1x3x512x512 .f32) (c : Fin 3) (h w : Fin 512) :
    k0_pay6 (F := Ideal) xb (ix3 c h w) = xb (ix4 (0 : Fin 1) c h w) :=
  shapeCast_1abc_abc_apply xb _ c h w

/-- The same cast of the second block. -/
theorem pay7_apply (yb : Vec Ideal S1x3x512x512 .f32) (c : Fin 3) (h w : Fin 512) :
    k0_pay7 (F := Ideal) yb (ix3 c h w) = yb (ix4 (0 : Fin 1) c h w) :=
  shapeCast_1abc_abc_apply yb _ c h w

/-- A sum over the middle axis of a [3,512,512] array, read at (c, w): the column sum. -/
theorem colsum_apply (src : FVec Ideal S3x512x512 .f32) (c : Fin 3) (w : Fin 512) :
    multiReduction (F := Ideal) .add [1] S3x512 src 0x00000000#32 reduces_S3x512x512_S3x512_2 (.inl rfl) rfl (ix2 c w)
      = ∑ h : Fin 512, src (ix3 c h w) := by
  refine (Ideal.multiReduction_add_single src 0x00000000#32 reduces_S3x512x512_S3x512_2 (.inl rfl) rfl (ix2 c w)).trans ?_
  refine Finset.sum_congr rfl fun h _ => congrArg src ?_
  exact funext fun a => Fin.ext (by match a with | ⟨0, _⟩ => rfl | ⟨1, _⟩ => rfl | ⟨2, _⟩ => rfl)

/-- The cast [3,512] → [3,1,512] read at (c, u, w). -/
theorem cast_mid_apply (v : FVec Ideal S3x512 .f32) (c : Fin 3) (u : Fin 1) (w : Fin 512) :
    shapeCast S3x1x512 v shapeCasts_S3x512_S3x1x512 (ix3 c u w) = v (ix2 c w) :=
  shapeCast_apply v _ _ _ (by
    have hu : u.val = 0 := by omega
    rw [Shape.rowMajor_val_two, Shape.rowMajor_val_three]
    show c.val * 512 + w.val = (c.val * 1 + u.val) * 512 + w.val
    rw [hu]; omega)

/-- The cast [3,1] → [3,1,1] read at (c, u, u'). -/
theorem cast_last_apply (v : FVec Ideal S3x1 .f32) (c : Fin 3) (u u' : Fin 1) :
    shapeCast S3x1x1 v shapeCasts_S3x1_S3x1x1 (ix3 c u u') = v (ix2 c u) :=
  shapeCast_apply v _ _ _ (by
    have hu : u.val = 0 := by omega
    have hu' : u'.val = 0 := by omega
    rw [Shape.rowMajor_val_two, Shape.rowMajor_val_three]
    show c.val * 1 + u.val = (c.val * 1 + u.val) * 1 + u'.val
    rw [hu, hu']; omega)

/-- A sum over the last axis of a [3,1,512] array, read at (c, u). -/
theorem lastsum_apply (src : FVec Ideal S3x1x512 .f32) (c : Fin 3) (u : Fin 1) :
    multiReduction (F := Ideal) .add [2] S3x1 src 0x00000000#32 reduces_S3x1x512_S3x1 (.inl rfl) rfl (ix2 c u)
      = ∑ w : Fin 512, src (ix3 c u w) := by
  refine (Ideal.multiReduction_add_single src 0x00000000#32 reduces_S3x1x512_S3x1 (.inl rfl) rfl (ix2 c u)).trans ?_
  refine Finset.sum_congr rfl fun w _ => congrArg src ?_
  exact funext fun a => Fin.ext (by match a with | ⟨0, _⟩ => rfl | ⟨1, _⟩ => rfl | ⟨2, _⟩ => rfl)

/-- A sum over the first axis of a [3,1,1] array, read at (u, u'). -/
theorem chansum_apply (src : FVec Ideal S3x1x1 .f32) (u u' : Fin 1) :
    multiReduction (F := Ideal) .add [0] S1x1 src 0x00000000#32 reduces_S3x1x1_S1x1 (.inl rfl) rfl (ix2 u u')
      = ∑ c : Fin 3, src (ix3 c u u') := by
  refine (Ideal.multiReduction_add_single src 0x00000000#32 reduces_S3x1x1_S1x1 (.inl rfl) rfl (ix2 u u')).trans ?_
  refine Finset.sum_congr rfl fun c _ => congrArg src ?_
  exact funext fun a => Fin.ext (by match a with | ⟨0, _⟩ => rfl | ⟨1, _⟩ => rfl | ⟨2, _⟩ => rfl)

/-- The squared column norm of the first block after its cast: at (c, u, w), the sum over h of x². -/
theorem pay13_apply (xb : Vec Ideal S1x3x512x512 .f32) (c : Fin 3) (u : Fin 1) (w : Fin 512) :
    k0_pay13 (F := Ideal) xb (ix3 c u w) = ∑ h : Fin 512, xb (ix4 (0 : Fin 1) c h w) * xb (ix4 (0 : Fin 1) c h w) := by
  unfold k0_pay13
  refine (cast_mid_apply _ c u w).trans ?_
  refine (colsum_apply _ c w).trans ?_
  refine Finset.sum_congr rfl fun h _ => ?_
  show k0_pay6 (F := Ideal) xb (ix3 c h w) * k0_pay6 (F := Ideal) xb (ix3 c h w) = _
  rw [pay6_apply]

/-- The squared column norm of the second block, before its cast: at (c, w), the sum over h of y². -/
theorem pay14_apply (yb : Vec Ideal S1x3x512x512 .f32) (c : Fin 3) (w : Fin 512) :
    k0_pay14 (F := Ideal) yb (ix2 c w) = ∑ h : Fin 512, yb (ix4 (0 : Fin 1) c h w) * yb (ix4 (0 : Fin 1) c h w) := by
  unfold k0_pay14
  refine (colsum_apply _ c w).trans ?_
  refine Finset.sum_congr rfl fun h _ => ?_
  show k0_pay7 (F := Ideal) yb (ix3 c h w) * k0_pay7 (F := Ideal) yb (ix3 c h w) = _
  rw [pay7_apply]

/-- The elementwise product of the two blocks after their casts. -/
theorem pay11_apply (xb yb : Vec Ideal S1x3x512x512 .f32) (c : Fin 3) (h w : Fin 512) :
    k0_pay11 (F := Ideal) xb yb (ix3 c h w) = xb (ix4 (0 : Fin 1) c h w) * yb (ix4 (0 : Fin 1) c h w) := by
  show k0_pay6 (F := Ideal) xb (ix3 c h w) * k0_pay7 (F := Ideal) yb (ix3 c h w) = _
  rw [pay6_apply, pay7_apply]

/-- The weights block is cast to its own shape. -/
theorem pay8_eq (wb : Vec Ideal S3x1x1 .f32) : k0_pay8 (F := Ideal) wb = wb :=
  shapeCast_self wb _

/-- The column accumulator's update: what it held plus one batch's column term. -/
theorem pay2_eq (xb yb : Vec Ideal S1x3x512x512 .f32) (wb : Vec Ideal S3x1x1 .f32) (acc : Vec Ideal S1x1 .f32) (j : S1x1.Idx) :
    k0_pay2 (F := Ideal) (k0_pay8 wb) (k0_pay11 xb yb) (k0_pay13 xb) (k0_pay14 yb) acc j = acc j + colTerm xb yb wb := by
  obtain ⟨u, u', rfl⟩ : ∃ (u u' : Fin 1), j = ix2 u u' := ⟨j 0, j 1, eq_ix2 j⟩
  obtain rfl : u = 0 := Subsingleton.elim _ _
  obtain rfl : u' = 0 := Subsingleton.elim _ _
  -- the last cast is to the same shape; the accumulator is the first summand
  unfold k0_pay2
  rw [shapeCast_self]
  refine congrArg (acc (ix2 (0 : Fin 1) (0 : Fin 1)) + ·) ?_
  -- the sum over the three channels, channel by channel
  refine (chansum_apply _ 0 0).trans ?_
  unfold colTerm
  refine Finset.sum_congr rfl fun c _ => ?_
  rw [pay8_eq]
  refine congrArg (· * wb (ix3 c (0 : Fin 1) (0 : Fin 1))) ?_
  refine congrArg (· * invLen) ?_
  -- the sum over the 512 columns, column by column
  refine (cast_last_apply _ c 0 0).trans ?_
  refine (lastsum_apply _ c 0).trans ?_
  refine Finset.sum_congr rfl fun w _ => ?_
  -- one column's quotient: its inner product over the product of its two clamped norms
  unfold cosim cnorm epsE
  show Ideal.div (shapeCast S3x1x512 (multiReduction (F := Ideal) .add [1] S3x512 (k0_pay11 xb yb) 0x00000000#32 reduces_S3x512x512_S3x512_2 (.inl rfl) rfl) shapeCasts_S3x512_S3x1x512 (ix3 c (0 : Fin 1) w))
      (max (Ideal.sqrt (k0_pay13 (F := Ideal) xb (ix3 c (0 : Fin 1) w))) (Ideal.ofBits .f32 0x2B8CBCCC#32)
        * max (Ideal.sqrt (shapeCast S3x1x512 (k0_pay14 (F := Ideal) yb) shapeCasts_S3x512_S3x1x512 (ix3 c (0 : Fin 1) w))) (Ideal.ofBits .f32 0x2B8CBCCC#32)) = _
  rw [cast_mid_apply, cast_mid_apply, colsum_apply, pay13_apply, pay14_apply]
  refine congrArg (fun z => Ideal.div z _) ?_
  exact Finset.sum_congr rfl fun h _ => pay11_apply xb yb c h w

end Cert.KernelIdeal.ColPayload

end
-- ==== Proof.KerPieces.lean ====
/-
  What one pass of the kernel body leaves in its two accumulators and in the output block, as values.

  The body keeps two [1,1] accumulators across the sixteen batches: one for the row terms, one for the column
  terms. At the first batch it clears both, then adds the batch's terms; at every later batch it adds the batch's
  terms to what the batch before left; at the last batch it also writes  (0 - (row + col)) * 2^-4  of the two
  accumulators, as just updated, into the output block. Each statement below reads one case's covering store back
  as its payload applied to the blocks the case loaded.
-/
import proofs.«110199_j4818953306340_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The row accumulator's update: what it held plus the batch's row term. -/
abbrev rowUpd (x0 x1 : Vec F S1x3x512x512 .f32) (x2 : Vec F S3x1x1 .f32) (acc : Vec F S1x1 .f32) : Vec F S1x1 .f32 := k0_pay1 (k0_pay12 x0 x1 x2) acc
/-- The column accumulator's update: what it held plus the batch's column term. -/
abbrev colUpd (x0 x1 : Vec F S1x3x512x512 .f32) (x2 : Vec F S3x1x1 .f32) (acc : Vec F S1x1 .f32) : Vec F S1x1 .f32 :=
  k0_pay2 (k0_pay8 x2) (k0_pay11 x0 x1) (k0_pay13 x0) (k0_pay14 x1) acc

/-! ## A middle batch -/

theorem rowAcc_B (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 : Vec F S1x3x512x512 .f32) (x2 : Vec F S3x1x1 .f32) (xs0 xs1 : Vec F S1x1 .f32) :
    sout0_B_0 c i a1 h1 a2 h2 a3 h3 a4 h4 a5 h5 a6 h6 hc0 hc1 x0 x1 x2 xs0 xs1 = rowUpd x0 x1 x2 xs0 := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S1x3x512x512) hz4, View.ld_unit_zero (S := S3x1x1) hz3, View.ld_unit_zero (S := S1x1) hz2]

theorem colAcc_B (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 : Vec F S1x3x512x512 .f32) (x2 : Vec F S3x1x1 .f32) (xs0 xs1 : Vec F S1x1 .f32) :
    sout0_B_1 c i a1 h1 a2 h2 a3 h3 a4 h4 a5 h5 a6 h6 hc0 hc1 x0 x1 x2 xs0 xs1 = colUpd x0 x1 x2 xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S1x3x512x512) hz4, View.ld_unit_zero (S := S3x1x1) hz3, View.ld_unit_zero (S := S1x1) hz2]

/-! ## The last batch -/

theorem rowAcc_C (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S1x3x512x512 .f32) (x2 : Vec F S3x1x1 .f32) (xs0 xs1 : Vec F S1x1 .f32) :
    sout0_C_0 c i a1 h1 a2 h2 a3 h3 a4 h4 a5 h5 a6 h6 hc0 hc1 x0 x1 x2 xs0 xs1 = rowUpd x0 x1 x2 xs0 := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero hz2]
  simp only [View.readAt_eq_ld, h1.read_unread, h2.read_unread, h3.read_unread, h5.read_unread, h6.read_unread,
    View.ld_unit_zero (S := S1x3x512x512) hz4, View.ld_unit_zero (S := S3x1x1) hz3, View.ld_unit_zero (S := S1x1) hz2]

theorem colAcc_C (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S1x3x512x512 .f32) (x2 : Vec F S3x1x1 .f32) (xs0 xs1 : Vec F S1x1 .f32) :
    sout0_C_1 c i a1 h1 a2 h2 a3 h3 a4 h4 a5 h5 a6 h6 hc0 hc1 x0 x1 x2 xs0 xs1 = colUpd x0 x1 x2 xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero hz2]
  simp only [View.readAt_eq_ld, h1.read_unread, h2.read_unread, h3.read_unread, h5.read_unread, h6.read_unread,
    View.ld_unit_zero (S := S1x3x512x512) hz4, View.ld_unit_zero (S := S3x1x1) hz3, View.ld_unit_zero (S := S1x1) hz2]

theorem out_C (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S1x3x512x512 .f32) (x2 : Vec F S3x1x1 .f32) (xs0 xs1 : Vec F S1x1 .f32) :
    out0_C_3 c i a1 h1 a2 h2 a3 h3 a4 h4 a5 h5 a6 h6 hc0 hc1 x0 x1 x2 xs0 xs1 = k0_pay3 (rowUpd x0 x1 x2 xs0) (colUpd x0 x1 x2 xs1) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero hz2]
  simp only [View.readAt_eq_ld, h1.read_unread, h2.read_unread, h3.read_unread, h5.read_unread, h6.read_unread,
    View.readCov_unit_zero (S := S1x1) _ hz2,
    View.ld_unit_zero (S := S1x3x512x512) hz4, View.ld_unit_zero (S := S3x1x1) hz3, View.ld_unit_zero (S := S1x1) hz2]

/-! ## The first batch -/

theorem rowAcc_A (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 : Vec F S1x3x512x512 .f32) (x2 : Vec F S3x1x1 .f32) :
    sout0_A_0 c i a1 h1 a2 h2 a3 h3 a4 h4 a5 h5 a6 h6 hc0 hc1 x0 x1 x2 = rowUpd x0 x1 x2 (k0_pay4 (F := F)) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h5.read_unread, h6.read_unread,
    View.ld_unit_zero (S := S1x3x512x512) hz4, View.ld_unit_zero (S := S3x1x1) hz3, View.ld_unit_zero (S := S1x1) hz2]

theorem colAcc_A (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S3x1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 : Vec F S1x3x512x512 .f32) (x2 : Vec F S3x1x1 .f32) :
    sout0_A_1 c i a1 h1 a2 h2 a3 h3 a4 h4 a5 h5 a6 h6 hc0 hc1 x0 x1 x2 = colUpd x0 x1 x2 (k0_pay5 (F := F)) := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h5.read_unread, h6.read_unread,
    View.ld_unit_zero (S := S1x3x512x512) hz4, View.ld_unit_zero (S := S3x1x1) hz3, View.ld_unit_zero (S := S1x1) hz2]

end Cert.KernelIdeal.Pieces

end
-- ==== Proof.KerValue.lean ====
/-
  The kernel's run, read as a value.

  Write x_t, y_t for batch t's blocks of the two arrays and w for the weights block. The row accumulator after
  batch n is  rowAcc n = rowUpd x_n y_n w (rowAcc (n-1)),  started from the zero block; likewise the column
  accumulator. By induction on the batch these are what the frame's point-by-point contents hold. Only the last
  batch writes the output block, with  (0 - (rowAcc 15 + colAcc 15)) * 2^-4 ; it is the one block written back and
  it is the whole [1,1] array. The program's last line reshapes that array to a scalar.
-/
import proofs.«110199_j4818953306340_1_alg».proof.Proof.KerPieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Pieces

variable {F : FTy → Type} [FloatOps F]
variable (m : (ℓ : Loc nD τ sig) → Buf (Elt F) ℓ) (ρ : Dev nD → PrngReg)

/-- Batch t's block of x, of y, and the weights block, at their literal types. -/
abbrev xblk (c : Dev nD) (t : Fin cfg0.N) : Vec F S1x3x512x512 .f32 := iblk m c 0 t
abbrev yblk (c : Dev nD) (t : Fin cfg0.N) : Vec F S1x3x512x512 .f32 := iblk m c 1 t
abbrev wblk (c : Dev nD) (t : Fin cfg0.N) : Vec F S3x1x1 .f32 := iblk m c 2 t

/-- The row accumulator after batch n. -/
def rowAcc (c : Dev nD) : (n : ℕ) → n < cfg0.N → Vec F S1x1 .f32
  | 0, h => rowUpd (xblk m c ⟨0, h⟩) (yblk m c ⟨0, h⟩) (wblk m c ⟨0, h⟩) (k0_pay4 (F := F))
  | n + 1, h => rowUpd (xblk m c ⟨n + 1, h⟩) (yblk m c ⟨n + 1, h⟩) (wblk m c ⟨n + 1, h⟩) (rowAcc c n (Nat.lt_of_succ_lt h))

/-- The column accumulator after batch n. -/
def colAcc (c : Dev nD) : (n : ℕ) → n < cfg0.N → Vec F S1x1 .f32
  | 0, h => colUpd (xblk m c ⟨0, h⟩) (yblk m c ⟨0, h⟩) (wblk m c ⟨0, h⟩) (k0_pay5 (F := F))
  | n + 1, h => colUpd (xblk m c ⟨n + 1, h⟩) (yblk m c ⟨n + 1, h⟩) (wblk m c ⟨n + 1, h⟩) (colAcc c n (Nat.lt_of_succ_lt h))

/-- After every batch the frame's carried contents are the two accumulators. -/
theorem accs_eq (c : Dev nD) : ∀ (n : ℕ) (h : n < cfg0.N),
    (outsAt0 m c n h).2.1 = rowAcc m c n h ∧ (outsAt0 m c n h).2.2 = colAcc m c n h
  | 0, h => by
    have h1 : ¬(⟨0, h⟩ : Fin cfg0.N).val % 16 = 15 := by show ¬(0 % 16 = 15); decide
    rw [outsAt0_A m c ⟨0, h⟩ rfl h1]
    dsimp only
    exact ⟨rowAcc_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩),
      colAcc_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩)⟩
  | n + 1, h => by
    have hN : cfg0.N = 16 := N_0
    have h0 : ¬(⟨n + 1, h⟩ : Fin cfg0.N).val % 16 = 0 := by dsimp only; omega
    obtain ⟨ihr, ihc⟩ := accs_eq c n (Nat.lt_of_succ_lt h)
    by_cases h1 : (⟨n + 1, h⟩ : Fin cfg0.N).val % 16 = 15
    · rw [outsAt0_C m c ⟨n + 1, h⟩ h0 h1]
      dsimp only
      rw [rowAcc_C, colAcc_C]
      show rowUpd _ _ _ (outsAt0 m c n _).2.1 = _ ∧ colUpd _ _ _ (outsAt0 m c n _).2.2 = _
      rw [ihr, ihc]
      exact ⟨rfl, rfl⟩
    · rw [outsAt0_B m c ⟨n + 1, h⟩ h0 h1]
      dsimp only
      rw [rowAcc_B, colAcc_B]
      show rowUpd _ _ _ (outsAt0 m c n _).2.1 = _ ∧ colUpd _ _ _ (outsAt0 m c n _).2.2 = _
      rw [ihr, ihc]
      exact ⟨rfl, rfl⟩

theorem lt15 : 15 < cfg0.N := by rw [show cfg0.N = 16 from N_0]; decide

/-- The [1,1] result array: the last batch's write. -/
abbrev result (c : Dev nD) : Buf (Elt F) ((c : Thread nD τ).loc main_v1) :=
  k0_pay3 (rowAcc m c 15 lt15) (colAcc m c 15 lt15)

/-- The last batch leaves the result in the output block. -/
theorem out_last (c : Dev nD) : (outsAt0 m c 15 lt15).1 = result m c := by
  have h0 : ¬(⟨15, lt15⟩ : Fin cfg0.N).val % 16 = 0 := by decide
  have h1 : (⟨15, lt15⟩ : Fin cfg0.N).val % 16 = 15 := by decide
  obtain ⟨ihr, ihc⟩ := accs_eq m c 14 (Nat.lt_of_succ_lt lt15)
  rw [outsAt0_C m c ⟨15, lt15⟩ h0 h1]
  dsimp only
  rw [out_C]
  show k0_pay3 (rowUpd _ _ _ (outsAt0 m c 14 _).2.1) (colUpd _ _ _ (outsAt0 m c 14 _).2.2) = _
  rw [ihr, ihc]
  rfl

/-- The one write-back, after the last batch, writes the result: the block is the whole array. -/
theorem flushed_eq (c : Dev nD) (t : Fin cfg0.N) (hf : (cfg0.win 3).flush t = true) :
    (dats m 0 c).flushed 3 t = ((cfg0.win 3).blk t).view.read (Elt F) (result m c) := by
  have hN : cfg0.N = 16 := N_0
  have h15 : t.val = 15 := by have := (flush0_3 t).mp hf; have := t.isLt; omega
  obtain rfl : t = ⟨15, lt15⟩ := Fin.ext h15
  show (cfg0.win 3).cut (grid0.coords ⟨15, lt15⟩) ((dats m 0 c).after 3 ⟨15, lt15⟩) = _
  rw [after0_3]
  show (cfg0.win 3).cut (grid0.coords ⟨15, lt15⟩) (outsAt0 m c 15 lt15).1 = _
  rw [out_last]
  have hz' : (fun a => win0_3.index ⟨15, lt15⟩ a * main_v1.ty.shape.size a) = fun _ => 0 :=
    funext fun a => by fin_cases a <;> decide
  exact (Memref.read_access_unit_zero (Elt F) main_v1 hz' (fun a => by rw [congrFun hz' a]; simp) (result m c)).symm

/-- So the result array ends holding it. -/
theorem final (c : Dev nD) : (dats m 0 c).arrAt 3 cfg0.N = result m c :=
  (dats m 0 c).arrAt_eq_of_cover 3 (result m c) (flushed_eq m c) fun i =>
    ⟨⟨15, lt15⟩, (flush0_3 ⟨15, lt15⟩).mpr (by decide), by
      show i ∈ ((View.whole main_v1).slice (win0_3.rect ⟨15, lt15⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index ⟨15, lt15⟩ 0 * win0_3.size 0 ≤ (i 0 : Nat) ∧ (i 0 : Nat) < win0_3.index ⟨15, lt15⟩ 0 * win0_3.size 0 + win0_3.xsize (grid0.coords ⟨15, lt15⟩) 0
        rw [show win0_3.index ⟨15, lt15⟩ 0 * win0_3.size 0 = 0 from by decide +kernel, show win0_3.xsize (grid0.coords ⟨15, lt15⟩) 0 = 1 from by decide +kernel]; omega
      | ⟨1, _⟩ =>
        show win0_3.index ⟨15, lt15⟩ 1 * win0_3.size 1 ≤ (i 1 : Nat) ∧ (i 1 : Nat) < win0_3.index ⟨15, lt15⟩ 1 * win0_3.size 1 + win0_3.xsize (grid0.coords ⟨15, lt15⟩) 1
        rw [show win0_3.index ⟨15, lt15⟩ 1 * win0_3.size 1 = 0 from by decide +kernel, show win0_3.xsize (grid0.coords ⟨15, lt15⟩) 1 = 1 from by decide +kernel]; omega⟩

/-- The program's last line: the [1,1] array viewed as a scalar. -/
theorem tail_eq (c : Dev nD) :
    Pipeline.afterTail₀ cfgs (dats m) 0 (V0 m) [hostOps1] c main_v2 = shapeCast S_ (result m c) shapeCasts_S1x1_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = result m c := (Pipeline.withArrays_arr spec0 launch0.win.arr_inj c _ _ 3).trans (final m c)
  show shapeCast S_ (Pipeline.withArrays (cfgs 0).spec c (V0 m c) (fun w => (dats m 0 c).arrAt w (cfgs 0).N)
    (Proc.devRef .tc main_v1)) shapeCasts_S1x1_S_ = _
  exact congrArg (fun v => shapeCast S_ v shapeCasts_S1x1_S_) e

/-- THE RUN, READ: every weakly fair execution ends with the scalar result at the reshaped result array and the three
    arguments as they were. -/
theorem run : θ_run defs (onTc (τ := τ) (main (F := F))) ⟨m, fun _ => 0, ρ⟩ fun r => ∀ c : Dev nD,
      r.2.mem ((c.tc : Thread nD τ).loc main_v2) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.KerIdeal.lean ====
/-
  The kernel's result over the extended reals is `spec` of the three argument arrays.

  Batch t's block of x read at (0, c, h, w) is x at (t, c, h, w), and the weights block at (c, 0, 0) is the weight of
  channel c (the region is entered after the weights were reshaped [3] -> [3,1,1]). So the row term of batch t's blocks
  is `rowBatch` at t, and the accumulator after batch n is the partial sum over the batches up to n, starting from 0;
  likewise for the columns. The last batch's write is then  (0 - (sum of row terms + sum of column terms)) * 2^-4.
  The two payload facts (the row term and the column update as the body computes them) are taken as hypotheses.
-/
import proofs.«110199_j4818953306340_1_alg».proof.Proof.KerValue
import proofs.«110199_j4818953306340_1_alg».proof.Proof.Spec
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.IdealValue

open Cert.KernelIdeal Cert.KernelIdeal.Gen Cert.KernelIdeal.Pieces Cert.KernelIdeal.RunValue Cert.ProfileSim

variable (m : (ℓ : Loc nD τ sig) → Buf (Elt Ideal) ℓ)

/-- The three argument arrays of core c. -/
abbrev xarr (c : Dev nD) : Arr := m ((c : Thread nD τ).loc main_arg0)
abbrev yarr (c : Dev nD) : Arr := m ((c : Thread nD τ).loc main_arg1)
abbrev warr (c : Dev nD) : Wts := m ((c : Thread nD τ).loc main_arg2)

/-! ## The small payloads at an index -/

theorem pay1_apply (v31 : FVec Ideal S1x1 .f32) (v52 : Vec Ideal S1x1 .f32) (j : S1x1.Idx) :
    k0_pay1 (F := Ideal) v31 v52 j = v52 j + v31 j := by
  show shapeCast S1x1 (addf v52 v31) shapeCasts_S1x1_S1x1 j = _
  rw [shapeCast_self]; rfl

theorem pay3_apply (a b : Vec Ideal S1x1 .f32) (j : S1x1.Idx) :
    k0_pay3 (F := Ideal) a b j = (0 - (a j + b j)) * invBatch := by
  show (Ideal.ofBits .f32 0x00000000#32 - (a j + b j)) * Ideal.ofBits .f32 0x3D800000#32 = _
  rw [Ideal.ofBits_zero_f32]; rfl

theorem pay4_apply (j : S1x1.Idx) : (k0_pay4 (F := Ideal)) j = 0 := by
  show shapeCast S1x1 (broadcast S1x1 (Scalar.ofBits (F := Ideal) .f32 0x00000000#32)) shapeCasts_S1x1_S1x1 j = 0
  rw [shapeCast_self]; exact Ideal.ofBits_zero_f32

theorem pay5_apply (j : S1x1.Idx) : (k0_pay5 (F := Ideal)) j = 0 := by
  show shapeCast S1x1 (broadcast S1x1 (Scalar.ofBits (F := Ideal) .f32 0x00000000#32)) shapeCasts_S1x1_S1x1 j = 0
  rw [shapeCast_self]; exact Ideal.ofBits_zero_f32

/-! ## The blocks read where the arrays are -/

theorem lt16 (t : Fin cfg0.N) : t.val < 16 := lt_of_lt_of_eq t.isLt (show cfg0.N = 16 from N_0)

/-- Where the three input windows sit at batch t: the two arrays' blocks at batch t, the weights' block at the origin. -/
theorem idx_x : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx_y : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem idx_w : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem xblk_apply (c : Dev nD) (t : Fin cfg0.N) (ch : Fin 3) (h w : Fin 512) :
    xblk m c t (ix4 (0 : Fin 1) ch h w) = xarr m c (ix4 ⟨t.val, lt16 t⟩ ch h w) := by
  obtain ⟨i0, i1, i2, i3⟩ := idx_x t
  unfold xblk iblk
  rw [View.read_apply]
  show V m c main_arg0 (((cfg0.win 0).blk t).view.emb (ix4 (0 : Fin 1) ch h w)) = _
  rw [V_main_arg0]
  refine congrArg (m ((c : Thread nD τ).loc main_arg0)) (funext fun a => Fin.ext ?_)
  match a with
  | ⟨0, _⟩ => show win0_0.index t 0 * 1 + 1 * 0 = t.val; rw [i0]; omega
  | ⟨1, _⟩ => show win0_0.index t 1 * 3 + 1 * ch.val = ch.val; rw [i1]; omega
  | ⟨2, _⟩ => show win0_0.index t 2 * 512 + 1 * h.val = h.val; rw [i2]; omega
  | ⟨3, _⟩ => show win0_0.index t 3 * 512 + 1 * w.val = w.val; rw [i3]; omega

theorem yblk_apply (c : Dev nD) (t : Fin cfg0.N) (ch : Fin 3) (h w : Fin 512) :
    yblk m c t (ix4 (0 : Fin 1) ch h w) = yarr m c (ix4 ⟨t.val, lt16 t⟩ ch h w) := by
  obtain ⟨i0, i1, i2, i3⟩ := idx_y t
  unfold yblk iblk
  rw [View.read_apply]
  show V m c main_arg1 (((cfg0.win 1).blk t).view.emb (ix4 (0 : Fin 1) ch h w)) = _
  rw [V_main_arg1]
  refine congrArg (m ((c : Thread nD τ).loc main_arg1)) (funext fun a => Fin.ext ?_)
  match a with
  | ⟨0, _⟩ => show win0_1.index t 0 * 1 + 1 * 0 = t.val; rw [i0]; omega
  | ⟨1, _⟩ => show win0_1.index t 1 * 3 + 1 * ch.val = ch.val; rw [i1]; omega
  | ⟨2, _⟩ => show win0_1.index t 2 * 512 + 1 * h.val = h.val; rw [i2]; omega
  | ⟨3, _⟩ => show win0_1.index t 3 * 512 + 1 * w.val = w.val; rw [i3]; omega

/-- The region finds the weights reshaped [3] -> [3,1,1]. -/
theorem V_wts (c : Dev nD) : (V m c main_v0 : S3x1x1.Idx → EReal) = shapeCast S3x1x1 (warr m c) shapeCasts_S3_S3x1x1 := by
  show StableHlo.after hostOps0 (fun b => m (c, b)) (Proc.devRef .tc main_v0) = _
  after_results
  rfl

theorem wblk_apply (c : Dev nD) (t : Fin cfg0.N) (ch : Fin 3) :
    wblk m c t (ix3 ch (0 : Fin 1) (0 : Fin 1)) = warr m c (ix1 ch) := by
  obtain ⟨i0, i1, i2⟩ := idx_w t
  unfold wblk iblk
  rw [View.read_apply]
  show (V m c main_v0 : S3x1x1.Idx → EReal) (((cfg0.win 2).blk t).view.emb (ix3 ch (0 : Fin 1) (0 : Fin 1))) = _
  refine (congrFun (V_wts m c) _).trans ?_
  refine shapeCast_apply (warr m c) shapeCasts_S3_S3x1x1 _ (ix1 ch) ?_
  rw [Shape.rowMajor_val_one, Shape.rowMajor_val_three]
  show ch.val = ((win0_2.index t 0 * 3 + 1 * ch.val) * 1 + (win0_2.index t 1 * 1 + 1 * 0)) * 1 + (win0_2.index t 2 * 1 + 1 * 0)
  rw [i0, i1, i2]; omega

/-! ## The batch terms and the accumulators -/

/-- Batch t's blocks give batch t's row term and column term. -/
theorem rowTerm_blk (c : Dev nD) (t : Fin cfg0.N) :
    rowTerm (xblk m c t) (yblk m c t) (wblk m c t) = rowBatch (xarr m c) (yarr m c) (warr m c) ⟨t.val, lt16 t⟩ :=
  rowTerm_eq_rowBatch _ _ _ _ _ _ _ (xblk_apply m c t) (yblk_apply m c t) (wblk_apply m c t)

theorem colTerm_blk (c : Dev nD) (t : Fin cfg0.N) :
    colTerm (xblk m c t) (yblk m c t) (wblk m c t) = colBatch (xarr m c) (yarr m c) (warr m c) ⟨t.val, lt16 t⟩ :=
  colTerm_eq_colBatch _ _ _ _ _ _ _ (xblk_apply m c t) (yblk_apply m c t) (wblk_apply m c t)

/-- The batch terms as sequences over the naturals (zero past the last batch), to sum over initial segments. -/
def rowSeq (c : Dev nD) (b : ℕ) : EReal := if hb : b < 16 then rowBatch (xarr m c) (yarr m c) (warr m c) ⟨b, hb⟩ else 0
def colSeq (c : Dev nD) (b : ℕ) : EReal := if hb : b < 16 then colBatch (xarr m c) (yarr m c) (warr m c) ⟨b, hb⟩ else 0

variable (hrow : ∀ (xb yb : Vec Ideal S1x3x512x512 .f32) (wb : Vec Ideal S3x1x1 .f32) (j : S1x1.Idx),
    k0_pay12 (F := Ideal) xb yb wb j = rowTerm xb yb wb)
variable (hcol : ∀ (xb yb : Vec Ideal S1x3x512x512 .f32) (wb : Vec Ideal S3x1x1 .f32) (acc : Vec Ideal S1x1 .f32) (j : S1x1.Idx),
    k0_pay2 (F := Ideal) (k0_pay8 wb) (k0_pay11 xb yb) (k0_pay13 xb) (k0_pay14 yb) acc j = acc j + colTerm xb yb wb)

include hrow in
/-- The row accumulator after batch n is the sum of the row terms of the batches up to n. -/
theorem rowAcc_sum (c : Dev nD) : ∀ (n : ℕ) (h : n < cfg0.N) (j : S1x1.Idx),
    rowAcc m c n h j = ∑ b ∈ Finset.range (n + 1), rowSeq m c b
  | 0, h, j => by
    show k0_pay1 (F := Ideal) (k0_pay12 (xblk m c ⟨0, h⟩) (yblk m c ⟨0, h⟩) (wblk m c ⟨0, h⟩)) (k0_pay4 (F := Ideal)) j = _
    rw [Finset.sum_range_one, pay1_apply, pay4_apply, zero_add, hrow, rowTerm_blk]
    unfold rowSeq; rw [dif_pos (lt16 ⟨0, h⟩)]
  | n + 1, h, j => by
    show k0_pay1 (F := Ideal) (k0_pay12 (xblk m c ⟨n + 1, h⟩) (yblk m c ⟨n + 1, h⟩) (wblk m c ⟨n + 1, h⟩))
      (rowAcc m c n (Nat.lt_of_succ_lt h)) j = _
    rw [Finset.sum_range_succ, pay1_apply, rowAcc_sum c n (Nat.lt_of_succ_lt h) j, hrow, rowTerm_blk]
    congr 1
    unfold rowSeq; rw [dif_pos (lt16 ⟨n + 1, h⟩)]

include hcol in
/-- The column accumulator after batch n is the sum of the column terms of the batches up to n. -/
theorem colAcc_sum (c : Dev nD) : ∀ (n : ℕ) (h : n < cfg0.N) (j : S1x1.Idx),
    colAcc m c n h j = ∑ b ∈ Finset.range (n + 1), colSeq m c b
  | 0, h, j => by
    show k0_pay2 (F := Ideal) (k0_pay8 (wblk m c ⟨0, h⟩)) (k0_pay11 (xblk m c ⟨0, h⟩) (yblk m c ⟨0, h⟩)) (k0_pay13 (xblk m c ⟨0, h⟩))
      (k0_pay14 (yblk m c ⟨0, h⟩)) (k0_pay5 (F := Ideal)) j = _
    rw [Finset.sum_range_one, hcol, pay5_apply, zero_add, colTerm_blk]
    unfold colSeq; rw [dif_pos (lt16 ⟨0, h⟩)]
  | n + 1, h, j => by
    show k0_pay2 (F := Ideal) (k0_pay8 (wblk m c ⟨n + 1, h⟩)) (k0_pay11 (xblk m c ⟨n + 1, h⟩) (yblk m c ⟨n + 1, h⟩))
      (k0_pay13 (xblk m c ⟨n + 1, h⟩)) (k0_pay14 (yblk m c ⟨n + 1, h⟩)) (colAcc m c n (Nat.lt_of_succ_lt h)) j = _
    rw [Finset.sum_range_succ, hcol, colAcc_sum c n (Nat.lt_of_succ_lt h) j, colTerm_blk]
    congr 1
    unfold colSeq; rw [dif_pos (lt16 ⟨n + 1, h⟩)]

theorem sum_rowSeq (c : Dev nD) :
    ∑ b ∈ Finset.range 16, rowSeq m c b = ∑ b : Fin 16, rowBatch (xarr m c) (yarr m c) (warr m c) b := by
  rw [Finset.sum_range]
  exact Finset.sum_congr rfl fun b _ => by unfold rowSeq; rw [dif_pos b.isLt]

theorem sum_colSeq (c : Dev nD) :
    ∑ b ∈ Finset.range 16, colSeq m c b = ∑ b : Fin 16, colBatch (xarr m c) (yarr m c) (warr m c) b := by
  rw [Finset.sum_range]
  exact Finset.sum_congr rfl fun b _ => by unfold colSeq; rw [dif_pos b.isLt]

include hrow hcol in
/-- The [1,1] result array holds `spec` of the arguments. -/
theorem result_eq_spec (c : Dev nD) (j : S1x1.Idx) : result m c j = spec (xarr m c) (yarr m c) (warr m c) := by
  show k0_pay3 (F := Ideal) (rowAcc m c 15 lt15) (colAcc m c 15 lt15) j = _
  rw [pay3_apply, rowAcc_sum m hrow c 15 lt15 j, colAcc_sum m hcol c 15 lt15 j, sum_rowSeq, sum_colSeq]
  rfl

include hrow hcol in
/-- And so does its view as a scalar. -/
theorem result_scalar (c : Dev nD) (i : S_.Idx) :
    shapeCast S_ (result m c) shapeCasts_S1x1_S_ i = spec (xarr m c) (yarr m c) (warr m c) := by
  unfold shapeCast
  exact result_eq_spec m hrow hcol c _

end Cert.KernelIdeal.IdealValue

end
-- ==== Proof.RefRow.lean ====
import proofs.«110199_j4818953306340_1_alg».proof.Proof.Spec
import proofs.«110199_j4818953306340_1_alg».proof.Proof.Gen.ReferenceIdeal.Read
import Idealize.ShloMosaic.Lib.ValueIdx
import Idealize.ShloMosaic.PureOps.Ideal.Laws

noncomputable section

open scoped BigOperators

namespace Cert.ReferenceIdeal.RowRead

open Idealize.ShloMosaic Idealize.ShloMosaic.ValueIdx Cert.ReferenceIdeal Cert.ReferenceIdeal.Gen Cert.ReferenceIdeal.Read Cert.ProfileSim

/-! ## The sum over an image's two axes

The reference sums the products over the axes h and w at once. The indices that contribute to the result at
(b, c) are exactly the (b, c, h, w), one for every pair (h, w), so the sum is the double sum over h and over w. -/

/-- Removing the two image axes of (b, c, h, w) leaves (b, c). -/
theorem drop_ix4 (b : Fin 16) (c : Fin 3) (h w : Fin 512) :
    reducesTo_S16x3x512x512_S16x3_d2_3.drop (ix4 b c h w) = ix2 b c := by
  funext a
  match a with
  | ⟨0, _⟩ => rfl
  | ⟨1, _⟩ => rfl

/-- An index whose first two coordinates are left as (b, c) is (b, c, its row, its column). -/
theorem eq_ix4_of_drop (i : S16x3x512x512.Idx) (b : Fin 16) (c : Fin 3)
    (hd : reducesTo_S16x3x512x512_S16x3_d2_3.drop i = ix2 b c) : ix4 b c (i 2) (i 3) = i := by
  obtain ⟨b', c', h', w', rfl⟩ : ∃ (b' : Fin 16) (c' : Fin 3) (h' w' : Fin 512), i = ix4 b' c' h' w' :=
    ⟨i 0, i 1, i 2, i 3, eq_ix4 i⟩
  rw [drop_ix4] at hd
  have hb : b' = b := congrFun hd 0
  have hc : c' = c := congrFun hd 1
  subst hb hc
  rfl

/-- The sum of a family over the indices that reduce to (b, c) is its double sum over the rows and the columns. -/
theorem sum_filter_drop (f : S16x3x512x512.Idx → EReal) (b : Fin 16) (c : Fin 3) :
    (∑ i ∈ Finset.univ.filter (fun i => reducesTo_S16x3x512x512_S16x3_d2_3.drop i = ix2 b c), f i)
      = ∑ h : Fin 512, ∑ w : Fin 512, f (ix4 b c h w) := by
  rw [← Fintype.sum_prod_type' (fun (h w : Fin 512) => f (ix4 b c h w))]
  refine Finset.sum_nbij' (fun i => ((i 2 : Fin 512), (i 3 : Fin 512))) (fun p => ix4 b c p.1 p.2) ?_ ?_ ?_ ?_ ?_
  · intro i _; exact Finset.mem_univ _
  · intro p _; exact Finset.mem_filter.mpr ⟨Finset.mem_univ _, drop_ix4 b c p.1 p.2⟩
  · intro i hi; exact eq_ix4_of_drop i b c (Finset.mem_filter.mp hi).2
  · intro p _; rfl
  · intro i hi; exact congrArg f (eq_ix4_of_drop i b c (Finset.mem_filter.mp hi).2).symm

/-- The reference's sum of the products over an image, read at (b, c). -/
theorem v17_apply (x y : (⟨S16x3x512x512, .f32⟩ : BufTy).Contents (Elt Ideal)) (b : Fin 16) (c : Fin 3) :
    val_main_v17 (F := Ideal) x y (ix2 b c)
      = ∑ h : Fin 512, ∑ w : Fin 512, val_main_v16 (F := Ideal) x y (ix4 b c h w) := by
  unfold val_main_v17
  generalize val_main_v16 (F := Ideal) x y = f
  simp only [Host.reduceAdd, Ideal.hostReduceAdd_def]
  unfold Ideal.hostReduceAdd
  rw [sum_filter_drop f b c, val_main_cst_3_apply, Ideal.ofBits_def, Ideal.ofBits_zero_f32, zero_add]

/-! ## One row -/

/-- The clamped norm the reference divides x's row (b, c, h) by. -/
theorem v5_row (x : (⟨S16x3x512x512, .f32⟩ : BufTy).Contents (Elt Ideal)) (b : Fin 16) (c : Fin 3) (h w : Fin 512) :
    val_main_v5 (F := Ideal) x (idx_main_v6 (ix4 b c h w)) = cnorm (fun w' : Fin 512 => x (ix4 b c h w')) := by
  have hi : ∀ k : Fin 512, idx_main_v1 (idx_main_v2 (idx_main_v6 (ix4 b c h w))) k = ix4 b c h k := fun k =>
    funext fun a => Fin.ext (by match a with | ⟨0, _⟩ => rfl | ⟨1, _⟩ => rfl | ⟨2, _⟩ => rfl | ⟨3, _⟩ => rfl)
  rw [val_main_v5_apply, val_main_v3_apply, val_main_v2_apply, val_main_v1_apply, val_main_v4_apply,
    val_main_cst_0_apply, val_main_cst_apply]
  simp only [val_main_v0_apply, hi, Ideal.maximumf_def, Ideal.hostUnary_sqrt_def, Ideal.ofBits_def, Ideal.mulf_def,
    Ideal.ofBits_zero_f32, zero_add]
  rfl

/-- The clamped norm the reference divides y's row (b, c, h) by. -/
theorem v13_row (y : (⟨S16x3x512x512, .f32⟩ : BufTy).Contents (Elt Ideal)) (b : Fin 16) (c : Fin 3) (h w : Fin 512) :
    val_main_v13 (F := Ideal) y (idx_main_v14 (ix4 b c h w)) = cnorm (fun w' : Fin 512 => y (ix4 b c h w')) := by
  have hi : ∀ k : Fin 512, idx_main_v9 (idx_main_v10 (idx_main_v14 (ix4 b c h w))) k = ix4 b c h k := fun k =>
    funext fun a => Fin.ext (by match a with | ⟨0, _⟩ => rfl | ⟨1, _⟩ => rfl | ⟨2, _⟩ => rfl | ⟨3, _⟩ => rfl)
  rw [val_main_v13_apply, val_main_v11_apply, val_main_v10_apply, val_main_v9_apply, val_main_v12_apply,
    val_main_cst_2_apply, val_main_cst_1_apply]
  simp only [val_main_v8_apply, hi, Ideal.maximumf_def, Ideal.hostUnary_sqrt_def, Ideal.ofBits_def, Ideal.mulf_def,
    Ideal.ofBits_zero_f32, zero_add]
  rfl

/-- One product of the reference: x's element over its row's norm, times y's over its row's. -/
theorem v16_row (x y : (⟨S16x3x512x512, .f32⟩ : BufTy).Contents (Elt Ideal)) (b : Fin 16) (c : Fin 3) (h w : Fin 512) :
    val_main_v16 (F := Ideal) x y (ix4 b c h w)
      = Ideal.div (x (ix4 b c h w)) (cnorm (fun w' : Fin 512 => x (ix4 b c h w')))
        * Ideal.div (y (ix4 b c h w)) (cnorm (fun w' : Fin 512 => y (ix4 b c h w'))) := by
  rw [val_main_v16_apply, val_main_v7_apply, val_main_v15_apply, val_main_v6_apply, val_main_v14_apply,
    v5_row, v13_row]
  rfl

/-! ## The mean row similarity -/

/-- The reference's mean row similarity of image (b, c), for arrays of real numbers. -/
theorem v19_eq (x y : (⟨S16x3x512x512, .f32⟩ : BufTy).Contents (Elt Ideal))
    (hx : ∀ i, ∃ r : ℝ, x i = (r : EReal)) (hy : ∀ i, ∃ r : ℝ, y i = (r : EReal)) (b : Fin 16) (c : Fin 3) :
    val_main_v19 (F := Ideal) x y (ix2 b c) = rowSim x y b c * invLen := by
  rw [val_main_v19_apply, val_main_v18_apply, val_main_cst_4_apply, v17_apply]
  simp only [Ideal.hostDivf_def, Ideal.ofBits_def]
  rw [div_512]
  congr 1
  unfold rowSim
  refine Finset.sum_congr rfl fun h _ => ?_
  rw [← sum_div_cnorm _ _ (fun w => hx (ix4 b c h w)) (fun w => hy (ix4 b c h w))]
  exact Finset.sum_congr rfl fun w _ => v16_row x y b c h w

end Cert.ReferenceIdeal.RowRead

end
-- ==== Proof.RefCol.lean ====
import proofs.«110199_j4818953306340_1_alg».proof.Proof.Spec
import proofs.«110199_j4818953306340_1_alg».proof.Proof.Gen.ReferenceIdeal.Read
import Idealize.ShloMosaic.Lib.ValueIdx
import Idealize.ShloMosaic.PureOps.Ideal.Laws

noncomputable section

namespace Cert.ReferenceIdeal.ColRead

open Idealize.ShloMosaic Idealize.ShloMosaic.ValueIdx Cert.ReferenceIdeal Cert.ReferenceIdeal.Read Cert.ProfileSim

/-! ## The sum over the two image axes

The reference sums the normalised products over the axes h and w at once. The indices of the
[16, 3, 512, 512] array that reduce to (b, c) are exactly the (b, c, h, w), one for every pair (h, w);
so that sum is the double sum over h and w, in either order. -/

/-- The pair (h, w) as the index (b, c, h, w). -/
def pairEmb (b : Fin 16) (c : Fin 3) : Fin 512 × Fin 512 ↪ S16x3x512x512.Idx :=
  ⟨fun p => ix4 b c p.1 p.2, fun p q h => Prod.ext (congrFun h 2) (congrFun h 3)⟩

/-- Dropping the axes h and w of (b, c, h, w) leaves (b, c). -/
theorem drop_ix4 (b : Fin 16) (c : Fin 3) (h w : Fin 512) :
    Gen.reducesTo_S16x3x512x512_S16x3_d2_3.drop (ix4 b c h w) = ix2 b c := by
  funext a
  match a with
  | ⟨0, _⟩ => exact Fin.ext (Shape.ReducesTo.drop_apply_val_of_eq Gen.reducesTo_S16x3x512x512_S16x3_d2_3 (ix4 b c h w) 0 0)
  | ⟨1, _⟩ => exact Fin.ext (Shape.ReducesTo.drop_apply_val_of_eq Gen.reducesTo_S16x3x512x512_S16x3_d2_3 (ix4 b c h w) 1 1)

/-- An index that drops to (b, c) is (b, c, h, w) of its own last two coordinates. -/
theorem eq_ix4_of_drop (b : Fin 16) (c : Fin 3) (i : S16x3x512x512.Idx)
    (hi : Gen.reducesTo_S16x3x512x512_S16x3_d2_3.drop i = ix2 b c) : ix4 b c (i 2) (i 3) = i := by
  have e0 : ((i 0 : Fin 16) : Nat) = b := by
    rw [← Shape.ReducesTo.drop_apply_val_of_eq Gen.reducesTo_S16x3x512x512_S16x3_d2_3 i 0 0, hi]
  have e1 : ((i 1 : Fin 3) : Nat) = c := by
    rw [← Shape.ReducesTo.drop_apply_val_of_eq Gen.reducesTo_S16x3x512x512_S16x3_d2_3 i 1 1, hi]
  funext a
  match a with
  | ⟨0, _⟩ => exact Fin.ext e0.symm
  | ⟨1, _⟩ => exact Fin.ext e1.symm
  | ⟨2, _⟩ => rfl
  | ⟨3, _⟩ => rfl

/-- The indices that reduce to (b, c) are the image of the pairs (h, w). -/
theorem filter_drop (b : Fin 16) (c : Fin 3) :
    Finset.univ.filter (fun i : S16x3x512x512.Idx => Gen.reducesTo_S16x3x512x512_S16x3_d2_3.drop i = ix2 b c)
      = Finset.univ.map (pairEmb b c) := by
  ext i
  simp only [Finset.mem_filter, Finset.mem_univ, true_and, Finset.mem_map, pairEmb, Function.Embedding.coeFn_mk]
  exact ⟨fun h => ⟨(i 2, i 3), eq_ix4_of_drop b c i h⟩, fun ⟨p, hp⟩ => hp ▸ drop_ix4 b c p.1 p.2⟩

/-- The reference's sum over the axes h and w at (b, c): the sum over the columns w of the sums down each column. -/
theorem v37_apply (x y : (⟨S16x3x512x512, .f32⟩ : BufTy).Contents (Elt Ideal)) (b : Fin 16) (c : Fin 3) :
    val_main_v37 (F := Ideal) x y (ix2 b c)
      = ∑ w : Fin 512, ∑ h : Fin 512, val_main_v36 (F := Ideal) x y (ix4 b c h w) := by
  unfold val_main_v37
  generalize val_main_v36 (F := Ideal) x y = z
  simp only [Host.reduceAdd, Ideal.hostReduceAdd_def]
  unfold Ideal.hostReduceAdd
  rw [filter_drop, Finset.sum_map, Fintype.sum_prod_type, Finset.sum_comm, val_main_cst_9_apply, Ideal.ofBits_def,
    Ideal.ofBits_zero_f32, zero_add]
  rfl

/-! ## One column's clamped norm

Down the column w of image (b, c) the reference squares, sums over h, takes the root and clamps from below: the
clamped Euclidean norm of that column, which it then repeats along h. -/

/-- The sum of squares down column w of image (b, c). -/
theorem v21_col (x : (⟨S16x3x512x512, .f32⟩ : BufTy).Contents (Elt Ideal)) (b : Fin 16) (c : Fin 3) (w : Fin 512) :
    val_main_v21 (F := Ideal) x (ix3 b c w) = ∑ h : Fin 512, x (ix4 b c h w) * x (ix4 b c h w) := by
  rw [val_main_v21_apply, val_main_cst_5_apply, Ideal.ofBits_def, Ideal.ofBits_zero_f32, zero_add]
  refine Finset.sum_congr rfl fun h _ => ?_
  have e : idx_main_v21 (ix3 b c w) h = ix4 b c h w :=
    funext fun a => Fin.ext (by match a with | ⟨0, _⟩ => rfl | ⟨1, _⟩ => rfl | ⟨2, _⟩ => rfl | ⟨3, _⟩ => rfl)
  rw [e, val_main_v20_apply, Ideal.mulf_def]

/-- The clamped norm of column w of image (b, c), on the kept unit axis. -/
theorem v25_col (x : (⟨S16x3x512x512, .f32⟩ : BufTy).Contents (Elt Ideal)) (b : Fin 16) (c : Fin 3) (w : Fin 512) :
    val_main_v25 (F := Ideal) x (ix4 b c (0 : Fin 1) w) = cnorm (fun h : Fin 512 => x (ix4 b c h w)) := by
  have e : idx_main_v22 (ix4 b c (0 : Fin 1) w) = ix3 b c w :=
    funext fun a => Fin.ext (by match a with | ⟨0, _⟩ => rfl | ⟨1, _⟩ => rfl | ⟨2, _⟩ => rfl)
  rw [val_main_v25_apply, val_main_v23_apply, val_main_v22_apply, e, v21_col, val_main_v24_apply, val_main_cst_6_apply,
    Ideal.maximumf_def, Ideal.hostUnary_sqrt_def, Ideal.ofBits_def]
  rfl

/-- The same norm at every row h of the column. -/
theorem v26_col (x : (⟨S16x3x512x512, .f32⟩ : BufTy).Contents (Elt Ideal)) (b : Fin 16) (c : Fin 3) (h w : Fin 512) :
    val_main_v26 (F := Ideal) x (ix4 b c h w) = cnorm (fun h : Fin 512 => x (ix4 b c h w)) := by
  have e : idx_main_v26 (ix4 b c h w) = ix4 b c (0 : Fin 1) w :=
    funext fun a => Fin.ext (by match a with | ⟨0, _⟩ => rfl | ⟨1, _⟩ => rfl | ⟨2, _⟩ => rfl | ⟨3, _⟩ => rfl)
  rw [val_main_v26_apply, e, v25_col]

/-- The second argument goes through the same operations as the first. -/
theorem v34_eq_v26 : val_main_v34 (F := Ideal) = val_main_v26 (F := Ideal) := rfl

/-! ## One column's cosine, and the mean over the columns -/

/-- Down column w the normalised products sum to the cosine of x's column against y's column. -/
theorem v36_col (x y : (⟨S16x3x512x512, .f32⟩ : BufTy).Contents (Elt Ideal))
    (hx : ∀ i, ∃ r : ℝ, x i = (r : EReal)) (hy : ∀ i, ∃ r : ℝ, y i = (r : EReal)) (b : Fin 16) (c : Fin 3) (w : Fin 512) :
    ∑ h : Fin 512, val_main_v36 (F := Ideal) x y (ix4 b c h w)
      = cosim (fun h : Fin 512 => x (ix4 b c h w)) (fun h : Fin 512 => y (ix4 b c h w)) := by
  rw [← sum_div_cnorm _ _ (fun h => hx (ix4 b c h w)) (fun h => hy (ix4 b c h w))]
  refine Finset.sum_congr rfl fun h _ => ?_
  rw [val_main_v36_apply, val_main_v27_apply, val_main_v35_apply, v34_eq_v26, v26_col, v26_col, Ideal.mulf_def,
    Ideal.hostDivf_def, Ideal.hostDivf_def]

/-- The reference's mean column similarity of image (b, c), for arrays of real numbers. -/
theorem v39_eq (x y : (⟨S16x3x512x512, .f32⟩ : BufTy).Contents (Elt Ideal))
    (hx : ∀ i, ∃ r : ℝ, x i = (r : EReal)) (hy : ∀ i, ∃ r : ℝ, y i = (r : EReal)) (b : Fin 16) (c : Fin 3) :
    val_main_v39 (F := Ideal) x y (ix2 b c) = colSim x y b c * invLen := by
  rw [val_main_v39_apply, v37_apply, val_main_v38_apply, val_main_cst_10_apply, Ideal.hostDivf_def, Ideal.ofBits_def,
    div_512]
  unfold colSim
  exact congrArg (· * invLen) (Finset.sum_congr rfl fun w _ => v36_col x y hx hy b c w)

end Cert.ReferenceIdeal.ColRead

end
-- ==== Proof.RefTop.lean ====
/-
  The reference's last operations: from the per-image mean similarities to the result.

  The reference multiplies the [16,3] array of mean row similarities by the weights broadcast along the batch axis,
  sums all 48 entries, does the same for the columns, adds the two sums, negates and divides by 16. A sum over the
  index set of [16,3] is the double sum over batch and channel, the quotient by 16 is the product with 2^-4, and
  -z is 0 - z: that is `spec`.
-/
import proofs.«110199_j4818953306340_1_alg».proof.Proof.Spec
import proofs.«110199_j4818953306340_1_alg».proof.Proof.Gen.ReferenceIdeal.Read
import Idealize.ShloMosaic.Lib.ValueIdx
import Idealize.ShloMosaic.PureOps.Ideal.Laws

noncomputable section

open scoped BigOperators

namespace Cert.ReferenceIdeal.TopRead

open Idealize.ShloMosaic Idealize.ShloMosaic.ValueIdx Cert.ReferenceIdeal Cert.ReferenceIdeal.Read Cert.ProfileSim

/-- The weights broadcast to [16,3] read, at (b, c), the weight of channel c. -/
theorem wts_row (w : (⟨S3, .f32⟩ : BufTy).Contents (Elt Ideal)) (b : Fin 16) (c : Fin 3) :
    val_main_v41 (F := Ideal) w (ix2 b c) = w (ix1 c) := by
  rw [val_main_v41_apply, val_main_v40_apply]
  exact congrArg w (funext fun a => Fin.ext (by match a with | ⟨0, _⟩ => rfl))

theorem wts_col (w : (⟨S3, .f32⟩ : BufTy).Contents (Elt Ideal)) (b : Fin 16) (c : Fin 3) :
    val_main_v45 (F := Ideal) w (ix2 b c) = w (ix1 c) := by
  rw [val_main_v45_apply, val_main_v44_apply]
  exact congrArg w (funext fun a => Fin.ext (by match a with | ⟨0, _⟩ => rfl))

/-- Given each image's mean row and column similarity, the reference's result is `spec`. -/
theorem v50_eq_spec (x y : (⟨S16x3x512x512, .f32⟩ : BufTy).Contents (Elt Ideal)) (w : (⟨S3, .f32⟩ : BufTy).Contents (Elt Ideal))
    (hrow : ∀ (b : Fin 16) (c : Fin 3), val_main_v19 (F := Ideal) x y (ix2 b c) = rowSim x y b c * invLen)
    (hcol : ∀ (b : Fin 16) (c : Fin 3), val_main_v39 (F := Ideal) x y (ix2 b c) = colSim x y b c * invLen)
    (i : S_.Idx) : val_main_v50 (F := Ideal) x y w i = spec x y w := by
  rw [val_main_v50_apply, val_main_cst_13_apply, val_main_v49_apply, val_main_v48_apply, val_main_v43_apply,
    val_main_v47_apply, val_main_cst_11_apply, val_main_cst_12_apply]
  simp only [Ideal.hostDivf_def, Ideal.hostNegf_def, Ideal.negf_def, Ideal.addf_def, Ideal.ofBits_def, Ideal.ofBits_zero_f32,
    zero_add]
  rw [div_16, sum_idx2, sum_idx2]
  unfold spec rowBatch colBatch
  rw [sub_eq_add_neg, zero_add]
  congr 3
  · refine Finset.sum_congr rfl fun b _ => Finset.sum_congr rfl fun c _ => ?_
    rw [val_main_v42_apply, hrow b c, wts_row]; rfl
  · refine Finset.sum_congr rfl fun b _ => Finset.sum_congr rfl fun c _ => ?_
    rw [val_main_v46_apply, hcol b c, wts_col]; rfl

end Cert.ReferenceIdeal.TopRead

end
-- ==== Proof.lean ====
/-
  The kernel streams the sixteen batches of x, y : f32[16, 3, 512, 512] through one grid axis. For each batch and
  each of the three channels it takes the 512 x 512 image's row similarity (the sum over the rows of the cosine of x's
  row against y's row, each norm clamped from below by the f32 nearest 1e-12) and its column similarity, scales each by
  2^-9, weights it by the channel's weight and adds the three channels into two [1,1] accumulators it keeps across
  the batches; after the last batch it writes  (0 - (rows + columns)) * 2^-4 . The reference normalises every row (and
  every column) of both arrays first, multiplies, sums over each image, divides by 512, weights, sums over batch and
  channel, negates the sum of the two totals and divides by 16.

  Over the extended reals both are one function of the arguments, `Cert.ProfileSim.spec` (Proof/Spec.lean):
    * the kernel's run is read off its frame (Proof/KerPieces.lean, Proof/KerValue.lean: the accumulators by induction on
      the batch, the one write-back, the closing reshape) and evaluated (Proof/KerRow.lean, Proof/KerCol.lean: the two
      payloads at an index; Proof/KerIdeal.lean: the blocks, the partial sums). Nothing here needs finiteness: sums of
      extended reals regroup freely, and z * 2^-9 = z / 512, (0 - z) * 2^-4 = (-z) / 16 for every z;
    * the reference's run is read one operation at a time (Proof/RefRow.lean, Proof/RefCol.lean, Proof/RefTop.lean). Here
      the quotient by the two clamped norms is taken element by element, and taking it out of the sum over a row (or a
      column) is the one step that needs every entry of x and y to be a real number (`sum_div_cnorm`): the precondition
      gives exactly that (Proof/Finite.lean).
  The kernel's idealization rewrote nothing, so `preserves` is `True`; the two kernel frames are the generated ones and the
  reference's frame is its run with the result dropped.
-/
import proofs.«110199_j4818953306340_1_alg».proof.Defs
import proofs.«110199_j4818953306340_1_alg».proof.Proof.Gen.Kernel
import proofs.«110199_j4818953306340_1_alg».proof.Proof.Gen.Kernel.Skeleton
import proofs.«110199_j4818953306340_1_alg».proof.Proof.Gen.Kernel.Launch
import proofs.«110199_j4818953306340_1_alg».proof.Proof.Gen.Kernel.Points
import proofs.«110199_j4818953306340_1_alg».proof.Proof.Gen.Kernel.Frame
import proofs.«110199_j4818953306340_1_alg».proof.Proof.Gen.KernelIdeal
import proofs.«110199_j4818953306340_1_alg».proof.Proof.Gen.KernelIdeal.Skeleton
import proofs.«110199_j4818953306340_1_alg».proof.Proof.Gen.KernelIdeal.Launch
import proofs.«110199_j4818953306340_1_alg».proof.Proof.Gen.KernelIdeal.Points
import proofs.«110199_j4818953306340_1_alg».proof.Proof.Gen.KernelIdeal.Frame
import proofs.«110199_j4818953306340_1_alg».proof.Proof.Gen.ReferenceIdeal
import proofs.«110199_j4818953306340_1_alg».proof.Proof.Gen.ReferenceIdeal.Run
import proofs.«110199_j4818953306340_1_alg».proof.Proof.Gen.ReferenceIdeal.Read
import proofs.«110199_j4818953306340_1_alg».proof.Proof.Gen.Pre_finite_inputs
import proofs.«110199_j4818953306340_1_alg».proof.Proof.Spec
import proofs.«110199_j4818953306340_1_alg».proof.Proof.Finite
import proofs.«110199_j4818953306340_1_alg».proof.Proof.KerRow
import proofs.«110199_j4818953306340_1_alg».proof.Proof.KerCol
import proofs.«110199_j4818953306340_1_alg».proof.Proof.KerPieces
import proofs.«110199_j4818953306340_1_alg».proof.Proof.KerValue
import proofs.«110199_j4818953306340_1_alg».proof.Proof.KerIdeal
import proofs.«110199_j4818953306340_1_alg».proof.Proof.RefRow
import proofs.«110199_j4818953306340_1_alg».proof.Proof.RefCol
import proofs.«110199_j4818953306340_1_alg».proof.Proof.RefTop
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `spec` of the arguments: the kernel's for any extended reals, the reference's because the
    precondition makes every entry of x and y a real number. -/
theorem algebraic : Cert.algebraic_KernelIdeal_ReferenceIdeal := by
  intro m ρ m' ρ' hpre hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.Pre_finite_inputs.Finite.real_of_pre _ _ _ (hpre c)
  rw [Cert.ReferenceIdeal.Read.val_main_v50_eq, (hagree c).1, (hagree c).2.1, (hagree c).2.2]
  funext i
  rw [Cert.ReferenceIdeal.TopRead.v50_eq_spec _ _ _ (Cert.ReferenceIdeal.RowRead.v19_eq _ _ hx hy)
    (Cert.ReferenceIdeal.ColRead.v39_eq _ _ hx hy) i]
  exact (Cert.KernelIdeal.IdealValue.result_scalar m Cert.KernelIdeal.RowPayload.pay12_eq
    Cert.KernelIdeal.ColPayload.pay2_eq c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
